-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x64x128 : Shape := ⟨3, ![128, 64, 128]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x64x128 : S_.BroadcastsInDim S128x64x128 (![] : Fin 0 → Fin S128x64x128.rank)
  reducesTo_S128x64x128_S_d0_1_2 : S128x64x128.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v15 : IVec S1 1) (main_c_5 : IVec S_ 1) : IVec S_ 1 :=
  let main_v16 : IVec S_ 1 := (fun x v => Host.reduce IntOp.andi x v reducesTo_S1_S_d0 h_S_) main_v15 main_c_5
  let main_v17 : IVec S_ 1 := andi main_v13 main_v16
  main_v17

def fn {F : FTy → Type} [FloatOps F] (main_arg0 : FVec F S4096x128 .f32) (main_arg1 : FVec F S128x64x128 .f32) (main_arg2 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x64x128 .f32 := Host.absf main_arg1
  let main_cst_0 : FVec F S_ .f32 := constant S_ .f32 0x7F800000#32
  let main_v5 : FVec F S128x64x128 .f32 := broadcastInDim S128x64x128 ![] bcast_S_S128x64x128 main_cst_0
  let main_v6 : IVec S128x64x128 1 := cmpf .olt main_v4 main_v5
  let main_c_1 : IVec S_ 1 := constantI S_ 1 1#1
  let main_v7 : IVec S_ 1 := (fun x v => Host.reduce IntOp.andi x v reducesTo_S128x64x128_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_cst_4 : FVec F S_ .f32 := constant S_ .f32 0x00000000#32
  let main_v14 : FVec F S1 .f32 := broadcastInDim S1 ![] bcast_S_S1 main_cst_4
  let main_v15 : IVec S1 1 := cmpf .une main_arg2 main_v14
  let main_c_5 : IVec S_ 1 := constantI S_ 1 1#1
  fn_part1 (F := F) main_v13 main_v15 main_c_5
-- ==== Kernel.lean ====
abbrev S4096x128 : Shape := ⟨2, ![4096, 128]⟩
abbrev S128x64x128 : Shape := ⟨3, ![128, 64, 128]⟩
abbrev S1 : Shape := ⟨1, ![1]⟩
abbrev S_ : Shape := ⟨0, ![]⟩
abbrev S4096 : Shape := ⟨1, ![4096]⟩
abbrev S4096x1 : Shape := ⟨2, ![4096, 1]⟩
abbrev S128x64 : Shape := ⟨2, ![128, 64]⟩
abbrev S64x128 : Shape := ⟨2, ![64, 128]⟩
abbrev S64x128x128 : Shape := ⟨3, ![64, 128, 128]⟩
abbrev S8192x128 : Shape := ⟨2, ![8192, 128]⟩
abbrev S512x128 : Shape := ⟨2, ![512, 128]⟩
abbrev S512x1 : Shape := ⟨2, ![512, 1]⟩
abbrev S1024x128 : Shape := ⟨2, ![1024, 128]⟩
abbrev S512x1024 : Shape := ⟨2, ![512, 1024]⟩
abbrev S1x128 : Shape := ⟨2, ![1, 128]⟩
abbrev S512 : Shape := ⟨1, ![512]⟩

abbrev nBuf : Space → Nat
  | .hbm => 28
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S128x64x128, .f32⟩
  | .hbm, ⟨2, _⟩ => ⟨S1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S128x64x128, .f32⟩
  | .hbm, ⟨15, _⟩ => ⟨S_, .f32⟩
  | .hbm, ⟨16, _⟩ => ⟨S128x64, .f32⟩
  | .hbm, ⟨17, _⟩ => ⟨S64x128, .f32⟩
  | .hbm, ⟨18, _⟩ => ⟨S_, .f32⟩
  | .hbm, ⟨19, _⟩ => ⟨S_, .f32⟩
  | .hbm, ⟨20, _⟩ => ⟨S64x128, .f32⟩
  | .hbm, ⟨21, _⟩ => ⟨S64x128, .f32⟩
  | .hbm, ⟨22, _⟩ => ⟨S64x128x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .bf16⟩
  | .hbm, ⟨27, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x1, .f32⟩
  | .local _ .vmem, ⟨3, _⟩ => ⟨S512x1, .f32⟩
  | .local _ .vmem, ⟨4, _⟩ => ⟨S8192x128, .bf16⟩
  | .local _ .vmem, ⟨5, _⟩ => ⟨S64x128, .f32⟩
  | .local _ .vmem, ⟨6, _⟩ => ⟨S512x128, .f32⟩
  | .local _ .vmem, ⟨7, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1_S_ : S1.ShapeCasts S_
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S128x64x128_S128x64_d2 : S128x64x128.ReducesTo [2] S128x64
  transposes_S128x64_S64x128_1_0 : S128x64.Transposes [1, 0] S64x128
  bcast_S_S64x128 : S_.BroadcastsInDim S64x128 (![] : Fin 0 → Fin S64x128.rank)
  transposes_S128x64x128_S64x128x128_1_0_2 : S128x64x128.Transposes [1, 0, 2] S64x128x128
  shapeCasts_S64x128x128_S8192x128 : S64x128x128.ShapeCasts S8192x128
  bcast_S_S8192x128 : S_.BroadcastsInDim S8192x128 (![] : Fin 0 → Fin S8192x128.rank)
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S8192x128_S1024x128_0_0 : ∀ a, (![0, 0] : Fin 2 → Nat) a + S1024x128.size a ≤ S8192x128.size a
  h_S1024x128 : 0 < S1024x128.numel
  shapeCasts_S1024x128_S1024x128 : S1024x128.ShapeCasts S1024x128
  slices_S512x1024_o0_0_S512x128 : S512x1024.Slices ![0, 0] S512x128
  broadcasts_S512x1_S512x128 : S512x1.Broadcasts S512x128
  inb_S64x128_S1x128_0_0 : ∀ a, (![0, 0] : Fin 2 → Nat) a + S1x128.size a ≤ S64x128.size a
  h_S1x128 : 0 < S1x128.numel
  shapeCasts_S1x128_S1x128 : S1x128.ShapeCasts S1x128
  broadcasts_S1x128_S512x128 : S1x128.Broadcasts S512x128
  slices_S512x1024_o0_128_S512x128 : S512x1024.Slices ![0, 128] S512x128
  inb_S64x128_S1x128_1_0 : ∀ a, (![1, 0] : Fin 2 → Nat) a + S1x128.size a ≤ S64x128.size a
  slices_S512x1024_o0_256_S512x128 : S512x1024.Slices ![0, 256] S512x128
  inb_S64x128_S1x128_2_0 : ∀ a, (![2, 0] : Fin 2 → Nat) a + S1x128.size a ≤ S64x128.size a
  slices_S512x1024_o0_384_S512x128 : S512x1024.Slices ![0, 384] S512x128
  inb_S64x128_S1x128_3_0 : ∀ a, (![3, 0] : Fin 2 → Nat) a + S1x128.size a ≤ S64x128.size a
  slices_S512x1024_o0_512_S512x128 : S512x1024.Slices ![0, 512] S512x128
  inb_S64x128_S1x128_4_0 : ∀ a, (![4, 0] : Fin 2 → Nat) a + S1x128.size a ≤ S64x128.size a
  slices_S512x1024_o0_640_S512x128 : S512x1024.Slices ![0, 640] S512x128
  inb_S64x128_S1x128_5_0 : ∀ a, (![5, 0] : Fin 2 → Nat) a + S1x128.size a ≤ S64x128.size a
  slices_S512x1024_o0_768_S512x128 : S512x1024.Slices ![0, 768] S512x128
  inb_S64x128_S1x128_6_0 : ∀ a, (![6, 0] : Fin 2 → Nat) a + S1x128.size a ≤ S64x128.size a
  slices_S512x1024_o0_896_S512x128 : S512x1024.Slices ![0, 896] S512x128
  inb_S64x128_S1x128_7_0 : ∀ a, (![7, 0] : Fin 2 → Nat) a + S1x128.size a ≤ S64x128.size a
  inb_S8192x128_S1024x128_1024_0 : ∀ a, (![1024, 0] : Fin 2 → Nat) a + S1024x128.size a ≤ S8192x128.size a
  inb_S64x128_S1x128_8_0 : ∀ a, (![8, 0] : Fin 2 → Nat) a + S1x128.size a ≤ S64x128.size a
  inb_S64x128_S1x128_9_0 : ∀ a, (![9, 0] : Fin 2 → Nat) a + S1x128.size a ≤ S64x128.size a
  inb_S64x128_S1x128_10_0 : ∀ a, (![10, 0] : Fin 2 → Nat) a + S1x128.size a ≤ S64x128.size a
  inb_S64x128_S1x128_11_0 : ∀ a, (![11, 0] : Fin 2 → Nat) a + S1x128.size a ≤ S64x128.size a
  inb_S64x128_S1x128_12_0 : ∀ a, (![12, 0] : Fin 2 → Nat) a + S1x128.size a ≤ S64x128.size a
  inb_S64x128_S1x128_13_0 : ∀ a, (![13, 0] : Fin 2 → Nat) a + S1x128.size a ≤ S64x128.size a
  inb_S64x128_S1x128_14_0 : ∀ a, (![14, 0] : Fin 2 → Nat) a + S1x128.size a ≤ S64x128.size a
  inb_S64x128_S1x128_15_0 : ∀ a, (![15, 0] : Fin 2 → Nat) a + S1x128.size a ≤ S64x128.size a
  inb_S8192x128_S1024x128_2048_0 : ∀ a, (![2048, 0] : Fin 2 → Nat) a + S1024x128.size a ≤ S8192x128.size a
  inb_S64x128_S1x128_16_0 : ∀ a, (![16, 0] : Fin 2 → Nat) a + S1x128.size a ≤ S64x128.size a
  inb_S64x128_S1x128_17_0 : ∀ a, (![17, 0] : Fin 2 → Nat) a + S1x128.size a ≤ S64x128.size a
  inb_S64x128_S1x128_18_0 : ∀ a, (![18, 0] : Fin 2 → Nat) a + S1x128.size a ≤ S64x128.size a
  inb_S64x128_S1x128_19_0 : ∀ a, (![19, 0] : Fin 2 → Nat) a + S1x128.size a ≤ S64x128.size a
  inb_S64x128_S1x128_20_0 : ∀ a, (![20, 0] : Fin 2 → Nat) a + S1x128.size a ≤ S64x128.size a
  inb_S64x128_S1x128_21_0 : ∀ a, (![21, 0] : Fin 2 → Nat) a + S1x128.size a ≤ S64x128.size a
  inb_S64x128_S1x128_22_0 : ∀ a, (![22, 0] : Fin 2 → Nat) a + S1x128.size a ≤ S64x128.size a
  inb_S64x128_S1x128_23_0 : ∀ a, (![23, 0] : Fin 2 → Nat) a + S1x128.size a ≤ S64x128.size a
  inb_S8192x128_S1024x128_3072_0 : ∀ a, (![3072, 0] : Fin 2 → Nat) a + S1024x128.size a ≤ S8192x128.size a
  inb_S64x128_S1x128_24_0 : ∀ a, (![24, 0] : Fin 2 → Nat) a + S1x128.size a ≤ S64x128.size a
  inb_S64x128_S1x128_25_0 : ∀ a, (![25, 0] : Fin 2 → Nat) a + S1x128.size a ≤ S64x128.size a
  inb_S64x128_S1x128_26_0 : ∀ a, (![26, 0] : Fin 2 → Nat) a + S1x128.size a ≤ S64x128.size a
  inb_S64x128_S1x128_27_0 : ∀ a, (![27, 0] : Fin 2 → Nat) a + S1x128.size a ≤ S64x128.size a
  inb_S64x128_S1x128_28_0 : ∀ a, (![28, 0] : Fin 2 → Nat) a + S1x128.size a ≤ S64x128.size a
  inb_S64x128_S1x128_29_0 : ∀ a, (![29, 0] : Fin 2 → Nat) a + S1x128.size a ≤ S64x128.size a
  inb_S64x128_S1x128_30_0 : ∀ a, (![30, 0] : Fin 2 → Nat) a + S1x128.size a ≤ S64x128.size a
  inb_S64x128_S1x128_31_0 : ∀ a, (![31, 0] : Fin 2 → Nat) a + S1x128.size a ≤ S64x128.size a
  inb_S8192x128_S1024x128_4096_0 : ∀ a, (![4096, 0] : Fin 2 → Nat) a + S1024x128.size a ≤ S8192x128.size a
  inb_S64x128_S1x128_32_0 : ∀ a, (![32, 0] : Fin 2 → Nat) a + S1x128.size a ≤ S64x128.size a
  inb_S64x128_S1x128_33_0 : ∀ a, (![33, 0] : Fin 2 → Nat) a + S1x128.size a ≤ S64x128.size a
  inb_S64x128_S1x128_34_0 : ∀ a, (![34, 0] : Fin 2 → Nat) a + S1x128.size a ≤ S64x128.size a
  inb_S64x128_S1x128_35_0 : ∀ a, (![35, 0] : Fin 2 → Nat) a + S1x128.size a ≤ S64x128.size a
  inb_S64x128_S1x128_36_0 : ∀ a, (![36, 0] : Fin 2 → Nat) a + S1x128.size a ≤ S64x128.size a
  inb_S64x128_S1x128_37_0 : ∀ a, (![37, 0] : Fin 2 → Nat) a + S1x128.size a ≤ S64x128.size a
  inb_S64x128_S1x128_38_0 : ∀ a, (![38, 0] : Fin 2 → Nat) a + S1x128.size a ≤ S64x128.size a
  inb_S64x128_S1x128_39_0 : ∀ a, (![39, 0] : Fin 2 → Nat) a + S1x128.size a ≤ S64x128.size a
  inb_S8192x128_S1024x128_5120_0 : ∀ a, (![5120, 0] : Fin 2 → Nat) a + S1024x128.size a ≤ S8192x128.size a
  inb_S64x128_S1x128_40_0 : ∀ a, (![40, 0] : Fin 2 → Nat) a + S1x128.size a ≤ S64x128.size a
  inb_S64x128_S1x128_41_0 : ∀ a, (![41, 0] : Fin 2 → Nat) a + S1x128.size a ≤ S64x128.size a
  inb_S64x128_S1x128_42_0 : ∀ a, (![42, 0] : Fin 2 → Nat) a + S1x128.size a ≤ S64x128.size a
  inb_S64x128_S1x128_43_0 : ∀ a, (![43, 0] : Fin 2 → Nat) a + S1x128.size a ≤ S64x128.size a
  inb_S64x128_S1x128_44_0 : ∀ a, (![44, 0] : Fin 2 → Nat) a + S1x128.size a ≤ S64x128.size a
  inb_S64x128_S1x128_45_0 : ∀ a, (![45, 0] : Fin 2 → Nat) a + S1x128.size a ≤ S64x128.size a
  inb_S64x128_S1x128_46_0 : ∀ a, (![46, 0] : Fin 2 → Nat) a + S1x128.size a ≤ S64x128.size a
  inb_S64x128_S1x128_47_0 : ∀ a, (![47, 0] : Fin 2 → Nat) a + S1x128.size a ≤ S64x128.size a
  inb_S8192x128_S1024x128_6144_0 : ∀ a, (![6144, 0] : Fin 2 → Nat) a + S1024x128.size a ≤ S8192x128.size a
  inb_S64x128_S1x128_48_0 : ∀ a, (![48, 0] : Fin 2 → Nat) a + S1x128.size a ≤ S64x128.size a
  inb_S64x128_S1x128_49_0 : ∀ a, (![49, 0] : Fin 2 → Nat) a + S1x128.size a ≤ S64x128.size a
  inb_S64x128_S1x128_50_0 : ∀ a, (![50, 0] : Fin 2 → Nat) a + S1x128.size a ≤ S64x128.size a
  inb_S64x128_S1x128_51_0 : ∀ a, (![51, 0] : Fin 2 → Nat) a + S1x128.size a ≤ S64x128.size a
  inb_S64x128_S1x128_52_0 : ∀ a, (![52, 0] : Fin 2 → Nat) a + S1x128.size a ≤ S64x128.size a
  inb_S64x128_S1x128_53_0 : ∀ a, (![53, 0] : Fin 2 → Nat) a + S1x128.size a ≤ S64x128.size a
  inb_S64x128_S1x128_54_0 : ∀ a, (![54, 0] : Fin 2 → Nat) a + S1x128.size a ≤ S64x128.size a
  inb_S64x128_S1x128_55_0 : ∀ a, (![55, 0] : Fin 2 → Nat) a + S1x128.size a ≤ S64x128.size a
  inb_S8192x128_S1024x128_7168_0 : ∀ a, (![7168, 0] : Fin 2 → Nat) a + S1024x128.size a ≤ S8192x128.size a
  inb_S64x128_S1x128_56_0 : ∀ a, (![56, 0] : Fin 2 → Nat) a + S1x128.size a ≤ S64x128.size a
  inb_S64x128_S1x128_57_0 : ∀ a, (![57, 0] : Fin 2 → Nat) a + S1x128.size a ≤ S64x128.size a
  inb_S64x128_S1x128_58_0 : ∀ a, (![58, 0] : Fin 2 → Nat) a + S1x128.size a ≤ S64x128.size a
  inb_S64x128_S1x128_59_0 : ∀ a, (![59, 0] : Fin 2 → Nat) a + S1x128.size a ≤ S64x128.size a
  inb_S64x128_S1x128_60_0 : ∀ a, (![60, 0] : Fin 2 → Nat) a + S1x128.size a ≤ S64x128.size a
  inb_S64x128_S1x128_61_0 : ∀ a, (![61, 0] : Fin 2 → Nat) a + S1x128.size a ≤ S64x128.size a
  inb_S64x128_S1x128_62_0 : ∀ a, (![62, 0] : Fin 2 → Nat) a + S1x128.size a ≤ S64x128.size a
  inb_S64x128_S1x128_63_0 : ∀ a, (![63, 0] : Fin 2 → Nat) a + S1x128.size a ≤ S64x128.size a
  reduces_S512x128_S512 : S512x128.Reduces [1] S512
  shapeCasts_S512_S512x1 : S512.ShapeCasts S512x1
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S128x64x128 : Shape := ⟨3, ![128, 64, 128]⟩
abbrev S1 : Shape := ⟨1, ![1]⟩
abbrev S_ : Shape := ⟨0, ![]⟩
abbrev S4096 : Shape := ⟨1, ![4096]⟩
abbrev S128x64 : Shape := ⟨2, ![128, 64]⟩
abbrev S4096x128x64 : Shape := ⟨3, ![4096, 128, 64]⟩
abbrev S4096x1x1 : Shape := ⟨3, ![4096, 1, 1]⟩
abbrev S1x128x64 : Shape := ⟨3, ![1, 128, 64]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x64x128, .f32⟩
  | .hbm, ⟨2, _⟩ => ⟨S1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S128x64x128, .f32⟩
  | .hbm, ⟨10, _⟩ => ⟨S_, .f32⟩
  | .hbm, ⟨11, _⟩ => ⟨S128x64, .f32⟩
  | .hbm, ⟨12, _⟩ => ⟨S4096x128x64, .f32⟩
  | .hbm, ⟨13, _⟩ => ⟨S4096x1x1, .f32⟩
  | .hbm, ⟨14, _⟩ => ⟨S_, .f32⟩
  | .hbm, ⟨15, _⟩ => ⟨S4096x128x64, .f32⟩
  | .hbm, ⟨16, _⟩ => ⟨S4096x128x64, .f32⟩
  | .hbm, ⟨17, _⟩ => ⟨S4096x128x64, .f32⟩
  | .hbm, ⟨18, _⟩ => ⟨S4096x128x64, .f32⟩
  | .hbm, ⟨19, _⟩ => ⟨S1x128x64, .f32⟩
  | .hbm, ⟨20, _⟩ => ⟨S4096x128x64, .f32⟩
  | .hbm, ⟨21, _⟩ => ⟨S4096x128x64, .f32⟩
  | .hbm, ⟨22, _⟩ => ⟨S4096x128x64, .f32⟩
  | .hbm, ⟨23, _⟩ => ⟨S4096x128x64, .f32⟩
  | .hbm, ⟨24, _⟩ => ⟨S_, .f32⟩
  | .hbm, ⟨25, _⟩ => ⟨S4096x128x64, .f32⟩
  | .hbm, ⟨26, _⟩ => ⟨S4096x128x64, .f32⟩
  | .hbm, ⟨27, _⟩ => ⟨S4096x128x64, .f32⟩
  | .hbm, ⟨28, _⟩ => ⟨S_, .f32⟩
  | .hbm, ⟨29, _⟩ => ⟨S4096x128, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x128, .f32⟩
  | .hbm, ⟨37, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  shapeCasts_S1_S_ : S1.ShapeCasts S_
  reducesTo_S4096x128_S4096_d1 : S4096x128.ReducesTo [1] S4096
  h_S_ : 0 < S_.numel
  reducesTo_S128x64x128_S128x64_d2 : S128x64x128.ReducesTo [2] S128x64
  bcast_S4096_S4096x1x1_0 : S4096.BroadcastsInDim S4096x1x1 (![0] : Fin 1 → Fin S4096x1x1.rank)
  bcast_S_S4096x128x64 : S_.BroadcastsInDim S4096x128x64 (![] : Fin 0 → Fin S4096x128x64.rank)
  bcast_S4096x1x1_S4096x128x64_0_1_2 : S4096x1x1.BroadcastsInDim S4096x128x64 (![0, 1, 2] : Fin 3 → Fin S4096x128x64.rank)
  bcast_S128x64_S1x128x64_1_2 : S128x64.BroadcastsInDim S1x128x64 (![1, 2] : Fin 2 → Fin S1x128x64.rank)
  bcast_S1x128x64_S4096x128x64_0_1_2 : S1x128x64.BroadcastsInDim S4096x128x64 (![0, 1, 2] : Fin 3 → Fin S4096x128x64.rank)
  reducesTo_S4096x128x64_S4096x128_d2 : S4096x128x64.ReducesTo [2] S4096x128
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  dot_S4096x128_S128x64x128_S4096x128x64_1_2_0_01_n_n_wf : DotDims.WF S4096x128 S128x64x128 S4096x128x64 [1] [2] [0] [0, 1] [] []

variable [Facts₀]

def dot_S4096x128_S128x64x128_S4096x128x64_1_2_0_01_n_n : DotDims S4096x128 S128x64x128 S4096x128x64 where
  lhsContracting := [1]
  rhsContracting := [2]
  lhsNonContracting := [0]
  rhsNonContracting := [0, 1]
  lhsBatch := []
  rhsBatch := []
  wf := dot_S4096x128_S128x64x128_S4096x128x64_1_2_0_01_n_n_wf

class Facts : Prop extends Facts₀ where

variable [Facts]
-- ==== Proof.KdeSpec.lean ====
/-
  The mathematics of the kernel-density estimate, stated once for both programs.

  With a : [4096, 128], b : [128, 64, 128], variance s : [1], and r = 1 / s, both programs compute
      out[n, m] = D[n, m] / (sum_m' D[n, m'] + eps),     D[n, m] = sum_q exp (E[n, m, q]),
  and differ only in how the exponent E is arranged:
      reference:  E = -1/2 * (((|a_n|^2 - 2 <a_n, b_mq>) + |b_mq|^2) * r)
      kernel:     E = (sum_d a_nd * (b_mqd * r) + (-1/2 * r) * |a_n|^2) + (-1/2 * r) * |b_mq|^2 .
  The two arrangements agree by distributivity, which on the extended reals needs every factor finite: the entries
  of a and b are real, and r is real because s is a nonzero real.
-/
import Idealize.ShloMosaic.PureOps.Ideal
import Idealize.ShloMosaic.PureOps.Ideal.Laws
import Idealize.ShloMosaic.Lib.ValueIdx

noncomputable section

namespace Cert.Kde

open Idealize.ShloMosaic Idealize.ShloMosaic.ValueIdx

/-! ## The three literal scalars whose values the law uses -/

theorem ofBits_one : Ideal.ofBits .f32 0x3F800000#32 = ((1 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- A finite sum of real numbers, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The arrays -/

abbrev SA : Shape := ⟨2, ![4096, 128]⟩
abbrev SB : Shape := ⟨3, ![128, 64, 128]⟩
abbrev SV : Shape := ⟨1, ![1]⟩
abbrev SA2 : Shape := ⟨2, ![4096, 1]⟩
abbrev SBS : Shape := ⟨2, ![8192, 128]⟩
abbrev SB2 : Shape := ⟨2, ![64, 128]⟩
abbrev Sblk : Shape := ⟨2, ![512, 128]⟩
abbrev Scol : Shape := ⟨2, ![512, 1]⟩

section
variable (A : SA.Idx → EReal) (B : SB.Idx → EReal) (v : SV.Idx → EReal)

/-- r = 1 / s. -/
def invVar : EReal := Ideal.div (Ideal.ofBits .f32 0x3F800000#32) (v (ix1 (0 : Fin 1)))

/-- The scalar -1/2 * r both squared norms are scaled by on the kernel's side. -/
def halfInv : EReal := Ideal.ofBits .f32 0xBF000000#32 * invVar v

/-- |a_n|^2. -/
def sqA (n : Fin 4096) : EReal := ∑ d : Fin 128, A (ix2 n d) * A (ix2 n d)

/-- |b_mq|^2. -/
def sqB (m : Fin 128) (q : Fin 64) : EReal := ∑ d : Fin 128, B (ix3 m q d) * B (ix3 m q d)

/-- <a_n, b_mq>. -/
def dotAB (n : Fin 4096) (m : Fin 128) (q : Fin 64) : EReal := ∑ d : Fin 128, A (ix2 n d) * B (ix3 m q d)

/-- The kernel's arrangement of the exponent. -/
def expoK (n : Fin 4096) (m : Fin 128) (q : Fin 64) : EReal :=
  ((∑ d : Fin 128, A (ix2 n d) * (B (ix3 m q d) * invVar v)) + halfInv v * sqA A n) + halfInv v * sqB B m q

/-- The reference's arrangement of the exponent. -/
def expoR (n : Fin 4096) (m : Fin 128) (q : Fin 64) : EReal :=
  Ideal.ofBits .f32 0xBF000000#32
    * (((sqA A n - Ideal.ofBits .f32 0x40000000#32 * dotAB A B n m q) + sqB B m q) * invVar v)

end

/-- The normalised densities over an exponent E: D / (row sum of D + eps), D = sum over q of exp E. -/
def outOf (E : Fin 4096 → Fin 128 → Fin 64 → EReal) : SA.Idx → EReal := fun i =>
  Ideal.div (∑ q : Fin 64, Ideal.exp (E (i 0) (i 1) q))
    ((∑ m' : Fin 128, ∑ q : Fin 64, Ideal.exp (E (i 0) m' q)) + Ideal.ofBits .f32 0x2EDBE6FF#32)

/-- What the kernel's program computes. -/
def GK (A : SA.Idx → EReal) (B : SB.Idx → EReal) (v : SV.Idx → EReal) : SA.Idx → EReal := outOf (expoK A B v)

/-- What the reference computes. -/
def GR (A : SA.Idx → EReal) (B : SB.Idx → EReal) (v : SV.Idx → EReal) : SA.Idx → EReal := outOf (expoR A B v)

/-! ## The arrays the kernel's region is handed besides a, as functions of the arguments -/

section
variable (A : SA.Idx → EReal) (B : SB.Idx → EReal) (v : SV.Idx → EReal)

/-- The column (-1/2 * r) * |a_n|^2. -/
def a2s : SA2.Idx → EReal := fun i => halfInv v * sqA A (i 0)

/-- The table (-1/2 * r) * |b_mq|^2, laid out [q, m]. -/
def b2s : SB2.Idx → EReal := fun i => halfInv v * sqB B (i 1) (i 0)

/-- b scaled by r, laid out [q * 128 + m, d]. -/
def bs : SBS.Idx → EReal := fun i =>
  B (ix3 (⟨(i 0).val % 128, Nat.mod_lt _ (by norm_num)⟩ : Fin 128)
        (⟨(i 0).val / 128, by have := (i 0).isLt; exact Nat.div_lt_of_lt_mul (by simpa using this)⟩ : Fin 64) (i 1)) * invVar v

end

/-! ## One grid point's block, as a function of the four blocks the body loads -/

section
variable (x0 : Sblk.Idx → EReal) (x1 : Scol.Idx → EReal) (x2 : SBS.Idx → EReal) (x3 : SB2.Idx → EReal)

/-- Row q * 128 + m of the scaled table. -/
def rowOf (q : Fin 64) (m : Fin 128) : Fin 8192 := ⟨q.val * 128 + m.val, by have := q.isLt; have := m.isLt; omega⟩

/-- The exponent at block row p, cluster m, member q: the matrix product's entry plus the two staged terms. -/
def expoBlk (p : Fin 512) (m : Fin 128) (q : Fin 64) : EReal :=
  ((∑ k : Fin 128, x0 (ix2 p k) * x2 (ix2 (rowOf q m) k)) + x1 (ix2 p (0 : Fin 1))) + x3 (ix2 q m)

/-- The accumulated density at block row p, cluster m. -/
def densBlk (p : Fin 512) (m : Fin 128) : EReal := ∑ q : Fin 64, Ideal.exp (expoBlk x0 x1 x2 x3 p m q)

/-- The block the body stores. -/
def outBlk : Sblk.Idx → EReal := fun j =>
  Ideal.div (densBlk x0 x1 x2 x3 (j 0) (j 1))
    ((∑ m' : Fin 128, densBlk x0 x1 x2 x3 (j 0) m') + Ideal.ofBits .f32 0x2EDBE6FF#32)

end

/-! ## The law -/

/-- With real entries and r real, the two arrangements of the exponent are one real number. -/
theorem expoK_eq_expoR (A : SA.Idx → EReal) (B : SB.Idx → EReal) (v : SV.Idx → EReal)
    (hA : ∀ i, ∃ r : ℝ, A i = (r : EReal)) (hB : ∀ i, ∃ r : ℝ, B i = (r : EReal))
    (hv : ∃ r : ℝ, r ≠ 0 ∧ v (ix1 (0 : Fin 1)) = (r : EReal)) (n : Fin 4096) (m : Fin 128) (q : Fin 64) :
    expoK A B v n m q = expoR A B v n m q := by
  obtain ⟨s, hs0, hs⟩ := hv
  choose α hα using hA
  choose β hβ using hB
  have hiv : invVar v = ((1 / s : ℝ) : EReal) := by
    unfold invVar
    rw [hs, ofBits_one, Ideal.div_coe hs0, ← EReal.coe_mul, one_mul]
  unfold expoK expoR halfInv sqA sqB dotAB
  simp only [hα, hβ, hiv, ofBits_neg_half, ofBits_two]
  simp only [← EReal.coe_mul, coe_sum, ← EReal.coe_add, ← EReal.coe_sub]
  congr 1
  have e : (∑ d : Fin 128, α (ix2 n d) * (β (ix3 m q d) * (1 / s)))
      = (1 / s) * ∑ d : Fin 128, α (ix2 n d) * β (ix3 m q d) := by
    rw [Finset.mul_sum]; exact Finset.sum_congr rfl fun d _ => by ring
  rw [e]; ring

/-- So under that precondition the two programs' functions are one. -/
theorem GK_eq_GR (A : SA.Idx → EReal) (B : SB.Idx → EReal) (v : SV.Idx → EReal)
    (hA : ∀ i, ∃ r : ℝ, A i = (r : EReal)) (hB : ∀ i, ∃ r : ℝ, B i = (r : EReal))
    (hv : ∃ r : ℝ, r ≠ 0 ∧ v (ix1 (0 : Fin 1)) = (r : EReal)) : GK A B v = GR A B v := by
  have e : expoK A B v = expoR A B v := by
    funext n m q; exact expoK_eq_expoR A B v hA hB hv n m q
  unfold GK GR; rw [e]

end Cert.Kde

end
-- ==== Proof.KernelHost.lean ====
/-
  The three arrays the kernel's host operations prepare for the region, as functions of the arguments:
  the column (-1/2 r) |a_n|^2, the table (-1/2 r) |b_mq|^2 laid out [q, m], and b scaled by r laid out [q * 128 + m, d].

  Each is read at an index one operation at a time, outermost first: an elementwise product is the product of the
  elements, a scalar's broadcast reads the scalar, a sum over the last axis is the sum over that axis's coordinates,
  a transpose swaps coordinates, and a reshape keeps the row-major position.
-/
import proofs.«411052_j49469433315702_3_alg».proof.Proof.Gen.KernelIdeal.Frame
import proofs.«411052_j49469433315702_3_alg».proof.Proof.KdeSpec
import Idealize.ShloMosaic.Lib.IdealHost
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem

/-! ## The two scalars -/

/-- The one-element variance array viewed as a scalar reads its element: both row-major positions are 0. -/
theorem scalar_of_one (v : S1.Idx → EReal) : shapeCast S_ v shapeCasts_S1_S_ ix0 = v (ix1 (0 : Fin 1)) := by
  refine shapeCast_apply _ _ _ (ix1 (0 : Fin 1)) ?_
  rw [Shape.rowMajor_val_one]
  exact (Shape.rowMajorPi_zero _ _).symm

/-- 1 / s on the host is r. -/
theorem invVar_read (v : S1.Idx → EReal) (w : S_.Idx → EReal) (hw : w ix0 = v (ix1 (0 : Fin 1))) :
    Host.divf (constant (F := Ideal) S_ .f32 0x3F800000#32) w ix0 = Cert.Kde.invVar v := by
  unfold Cert.Kde.invVar
  refine (hostDivf_apply _ _ _).trans ?_
  exact congrArg₂ Ideal.div rfl hw

/-- -1/2 * (1 / s) on the host is -1/2 * r. -/
theorem halfInv_read (v : S1.Idx → EReal) (w : S_.Idx → EReal) (hw : w ix0 = v (ix1 (0 : Fin 1))) :
    mulf (constant (F := Ideal) S_ .f32 0xBF000000#32) (Host.divf (constant (F := Ideal) S_ .f32 0x3F800000#32) w) ix0
      = Cert.Kde.halfInv v := by
  unfold Cert.Kde.halfInv
  refine (mulf_apply _ _ _).trans ?_
  exact congrArg₂ (· * ·) rfl (invVar_read v w hw)

variable (m : (ℓ : Loc nD τ sig) → Buf (Elt Ideal) ℓ)

/-! ## The column of a's squared norms -/

theorem V_a2s (c : Dev nD) : (V m c main_v7 : S4096x1.Idx → EReal)
    = Cert.Kde.a2s (m ((c : Thread nD τ).loc main_arg0)) (m ((c : Thread nD τ).loc main_arg2)) := by
  dsimp only [Gen.V, Gen.hostOps0]
  after_results
  funext i
  obtain ⟨n, z, rfl⟩ : ∃ (n : Fin 4096) (z : Fin 1), i = ix2 n z := ⟨i 0, i 1, eq_ix2 i⟩
  unfold Cert.Kde.a2s Cert.Kde.sqA
  refine (mulf_apply _ _ _).trans ?_
  refine congrArg₂ (· * ·) ?_ ?_
  · -- the scalar -1/2 * r, broadcast to the column
    refine (broadcastInDim_scalar_apply _ _ _).trans ?_
    exact halfInv_read _ _ (scalar_of_one _)
  · -- the sum over d of a[n, d]^2, broadcast along a unit axis
    have hR : S4096x128.Reduces [1] S4096 := by decide
    refine (broadcastInDim_apply _ _ _ _ (ix1 n) fun a => match a with | ⟨0, _⟩ => rfl).trans ?_
    refine (hostReduceAdd_apply _ _ _ _ _).trans ?_
    refine (Ideal.hostReduceAdd_single _ hR _ _ _).trans ?_
    rw [constant_apply, Ideal.ofBits_zero_f32, zero_add]
    refine Finset.sum_congr rfl fun d _ => ?_
    -- the index over row n with d inserted on the summed axis is (n, d)
    have hl : hR.lift (ix1 n) d = ix2 n d := funext fun a => match a with | ⟨0, _⟩ => rfl | ⟨1, _⟩ => rfl
    rw [mulf_apply, hl]
    rfl

/-! ## The table of b's squared norms, laid out [q, m] -/

theorem V_b2s (c : Dev nD) : (V m c main_v13 : S64x128.Idx → EReal)
    = Cert.Kde.b2s (m ((c : Thread nD τ).loc main_arg1)) (m ((c : Thread nD τ).loc main_arg2)) := by
  dsimp only [Gen.V, Gen.hostOps0]
  after_results
  funext i
  obtain ⟨q, k, rfl⟩ : ∃ (q : Fin 64) (k : Fin 128), i = ix2 q k := ⟨i 0, i 1, eq_ix2 i⟩
  unfold Cert.Kde.b2s Cert.Kde.sqB
  refine (mulf_apply _ _ _).trans ?_
  refine congrArg₂ (· * ·) ?_ ?_
  · -- the scalar -1/2 * r, broadcast to the table
    refine (broadcastInDim_scalar_apply _ _ _).trans ?_
    exact halfInv_read _ _ (scalar_of_one _)
  · -- entry (q, k) of the transpose is entry (k, q) of the sums over d of b[k, q, d]^2
    have hR : S128x64x128.Reduces [2] S128x64 := by decide
    refine (transpose_ix2_apply _ _ q k).trans ?_
    refine (hostReduceAdd_apply _ _ _ _ _).trans ?_
    refine (Ideal.hostReduceAdd_single _ hR _ _ _).trans ?_
    rw [constant_apply, Ideal.ofBits_zero_f32, zero_add]
    refine Finset.sum_congr rfl fun d _ => ?_
    -- the index over (k, q) with d inserted on the summed axis is (k, q, d)
    have hl : hR.lift (ix2 k q) d = ix3 k q d :=
      funext fun a => match a with | ⟨0, _⟩ => rfl | ⟨1, _⟩ => rfl | ⟨2, _⟩ => rfl
    rw [mulf_apply, hl]
    rfl

/-! ## b scaled by r, laid out [q * 128 + m, d] -/

theorem V_bs (c : Dev nD) : (V m c main_v18 : S8192x128.Idx → EReal)
    = Cert.Kde.bs (m ((c : Thread nD τ).loc main_arg1)) (m ((c : Thread nD τ).loc main_arg2)) := by
  dsimp only [Gen.V, Gen.hostOps0]
  after_results
  funext i
  obtain ⟨r, d, rfl⟩ : ∃ (r : Fin 8192) (d : Fin 128), i = ix2 r d := ⟨i 0, i 1, eq_ix2 i⟩
  unfold Cert.Kde.bs
  -- the conversion to bf16 keeps the ideal value
  refine (truncf_apply (φ := .f32) (ψ := .bf16) _ bitsLt_bf16_f32 (ix2 r d)).trans ?_
  refine (mulf_apply _ _ _).trans ?_
  refine congrArg₂ (· * ·) ?_ ?_
  · -- row r of the reshape is (q, k) = (r / 128, r % 128) of the transpose, which is (k, q) of b
    have hq : r.val / 128 < 64 := by have := r.isLt; omega
    have hk : r.val % 128 < 128 := Nat.mod_lt _ (by norm_num)
    show shapeCast S8192x128 (transpose S64x128x128 [1, 0, 2] (m (c, Proc.tc.devRef main_arg1))
      transposes_S128x64x128_S64x128x128_1_0_2) shapeCasts_S64x128x128_S8192x128 (ix2 r d) = _
    refine (shapeCast_apply _ _ _ (ix3 (⟨r.val / 128, hq⟩ : Fin 64) (⟨r.val % 128, hk⟩ : Fin 128) d) ?_).trans ?_
    · rw [Shape.rowMajor_val_three, Shape.rowMajor_val_two]
      show (r.val / 128 * 128 + r.val % 128) * 128 + d.val = r.val * 128 + d.val
      omega
    · refine (transpose_apply _ _ _ _ (ix3 (⟨r.val % 128, hk⟩ : Fin 128) (⟨r.val / 128, hq⟩ : Fin 64) d)
        fun b => match b with | ⟨0, _⟩ => rfl | ⟨1, _⟩ => rfl | ⟨2, _⟩ => rfl).trans ?_
      rfl
  · -- the scalar r, broadcast to the table
    refine (broadcastInDim_scalar_apply _ _ _).trans ?_
    exact invVar_read _ _ (scalar_of_one _)

end Cert.KernelIdeal.HostSide

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Body.lean ====
/-
  What the kernel's body leaves in its output block, as a function of the four blocks it loads.

  The body is unrolled: eight matrix products of the 512-row block of a against 1024 rows of the scaled table each, and
  for every one of the 64 members q a 128-lane window of the product plus the staged column plus row q of the staged
  table, exponentiated and added to a running [512, 128] accumulator; then the accumulator divided by its lane sums
  plus eps. Read at block index (p, c), every operation is the same operation on the entries at (p, c) — a lane window
  reads the product at column offset + c, a column broadcast reads row p, a row broadcast reads lane c — so the
  accumulator at (p, c) is the sum over q, in order, of exp of the exponent at (p, c, q).
-/
import proofs.«411052_j49469433315702_3_alg».proof.Proof.Gen.KernelIdeal.Frame
import proofs.«411052_j49469433315702_3_alg».proof.Proof.KdeSpec
import proofs.«411052_j49469433315702_3_alg».proof.Proof.LibColumn
import Idealize.ShloMosaic.Lib.ValueLayout

noncomputable section

namespace Cert.KernelIdeal.Body

open Cert.KernelIdeal Cert.KernelIdeal.Gen Idealize.ShloMosaic Idealize.ShloMosaic.ValueIdx

/-! ## Index bounds -/

theorem col_lt {off : ℕ} (h : S512x1024.Slices ![0, off] S512x128) (c : Fin 128) : off + c.val < 1024 := by
  have h1 : off + 128 ≤ 1024 := h.2 1
  have := c.isLt
  omega

theorem chunk_lt {roff : ℕ} (inb : ∀ a, (![roff, 0] : Fin 2 → ℕ) a + S1024x128.size a ≤ S8192x128.size a)
    (j : ℕ) (hj : j < 1024) : roff + j < 8192 := by
  have h0 : roff + 1024 ≤ 8192 := inb 0
  omega

theorem row_lt {q : ℕ} (inb : ∀ a, (![q, 0] : Fin 2 → ℕ) a + S1x128.size a ≤ S64x128.size a) : q < 64 := by
  have h0 : q + 1 ≤ 64 := inb 0
  omega

/-! ## The operations that move entries, read at an index -/

/-- The 128 columns of the 512 x 1024 product from column `off` on, read at (p, c): the product at (p, off + c). -/
theorem slice_apply {α : Type} (off : ℕ) (x : S512x1024.Idx → α)
    (h : S512x1024.Slices ![0, off] S512x128) (p : Fin 512) (c : Fin 128) :
    extractStridedSlice S512x128 ![0, off] x h (ix2 p c) = x (ix2 p (⟨off + c.val, col_lt h c⟩ : Fin 1024)) :=
  extractStridedSlice_apply _ x h _ _ fun a => by
    match a with
    | ⟨0, _⟩ => exact (Nat.zero_add _).symm
    | ⟨1, _⟩ => rfl

/-- A load of 1024 rows of the scaled table from row `roff` on, read at (j, k): the table at (roff + j, k). -/
theorem ld_rows1024 (X : Vec Ideal S8192x128 .bf16) (roff : ℕ)
    (inb : ∀ a, (![roff, 0] : Fin 2 → ℕ) a + S1024x128.size a ≤ S8192x128.size a) (j : Fin 1024) (k : Fin 128) :
    View.ld X (Rect.unit (s := S8192x128) ![roff, 0] ![1024, 128] inb) (ix2 j k)
      = X (ix2 (⟨roff + j.val, chunk_lt inb j.val j.isLt⟩ : Fin 8192) k) := by
  show X _ = X _
  refine congrArg X (funext fun a => Fin.ext ?_)
  match a with
  | ⟨0, _⟩ => show roff + 1 * j.val = roff + j.val; omega
  | ⟨1, _⟩ => show 0 + 1 * k.val = k.val; omega

/-- A load of one row of the [64, 128] table, read at (0, c): the table at (q, c). -/
theorem ld_row (X : Vec Ideal S64x128 .f32) (q : ℕ)
    (inb : ∀ a, (![q, 0] : Fin 2 → ℕ) a + S1x128.size a ≤ S64x128.size a) (u : Fin 1) (c : Fin 128) :
    View.ld X (Rect.unit (s := S64x128) ![q, 0] ![1, 128] inb) (ix2 u c) = X (ix2 (⟨q, row_lt inb⟩ : Fin 64) c) := by
  show X _ = X _
  refine congrArg X (funext fun a => Fin.ext ?_)
  match a with
  | ⟨0, _⟩ => show q + 1 * u.val = q; have := u.isLt; omega
  | ⟨1, _⟩ => show 0 + 1 * c.val = c.val; omega

/-! ## The matrix product's entry -/

theorem mm_lhs_0 (i : S512x1024.Idx) (q : dot_S512x128_S1024x128_S512x1024_1_1_0_0_n_n.contr.Idx) : (dot_S512x128_S1024x128_S512x1024_1_1_0_0_n_n.lhsIdx i q 0).val = (i 0).val := by
  unfold DotDims.lhsIdx
  rw [dif_neg (show ¬(0 : Fin S512x128.rank) ∈ dot_S512x128_S1024x128_S512x1024_1_1_0_0_n_n.lhsBatch by decide), dif_pos (show (0 : Fin S512x128.rank) ∈ dot_S512x128_S1024x128_S512x1024_1_1_0_0_n_n.lhsNonContracting by decide)]
  rfl
theorem mm_lhs_1 (i : S512x1024.Idx) (q : dot_S512x128_S1024x128_S512x1024_1_1_0_0_n_n.contr.Idx) : (dot_S512x128_S1024x128_S512x1024_1_1_0_0_n_n.lhsIdx i q 1).val = (q ⟨0, by decide⟩).val :=
  dot_S512x128_S1024x128_S512x1024_1_1_0_0_n_n.lhsIdx_val_of_single rfl i q
theorem mm_rhs_0 (i : S512x1024.Idx) (q : dot_S512x128_S1024x128_S512x1024_1_1_0_0_n_n.contr.Idx) : (dot_S512x128_S1024x128_S512x1024_1_1_0_0_n_n.rhsIdx i q 0).val = (i 1).val := by
  unfold DotDims.rhsIdx
  rw [dif_neg (show ¬(0 : Fin S1024x128.rank) ∈ dot_S512x128_S1024x128_S512x1024_1_1_0_0_n_n.rhsBatch by decide), dif_pos (show (0 : Fin S1024x128.rank) ∈ dot_S512x128_S1024x128_S512x1024_1_1_0_0_n_n.rhsNonContracting by decide)]
  rfl
theorem mm_rhs_1 (i : S512x1024.Idx) (q : dot_S512x128_S1024x128_S512x1024_1_1_0_0_n_n.contr.Idx) : (dot_S512x128_S1024x128_S512x1024_1_1_0_0_n_n.rhsIdx i q 1).val = (q ⟨0, by decide⟩).val :=
  dot_S512x128_S1024x128_S512x1024_1_1_0_0_n_n.rhsIdx_val_of_single rfl i q

/-- Entry (p, j) of a [512, 128] block times the transpose of 1024 table rows, into a zero accumulator: the inner product
    of block row p with table row j. -/
theorem matmul_entry (a : FVec Ideal S512x128 .bf16) (b : FVec Ideal S1024x128 .bf16) (p : Fin 512) (j : Fin 1024) :
    matmul dot_S512x128_S1024x128_S512x1024_1_1_0_0_n_n none a b (constant S512x1024 .f32 0x00000000#32) (ix2 p j) = ∑ k : Fin 128, a (ix2 p k) * b (ix2 j k) := by
  simp only [matmul]
  rw [Ideal.matmul_constant_zero_apply, ← Equiv.sum_comp (contrEquiv1 dot_S512x128_S1024x128_S512x1024_1_1_0_0_n_n 128 rfl rfl).symm]
  refine Finset.sum_congr rfl fun k _ => ?_
  have hk := contrEquiv1_symm_val dot_S512x128_S1024x128_S512x1024_1_1_0_0_n_n 128 rfl rfl k
  have el : dot_S512x128_S1024x128_S512x1024_1_1_0_0_n_n.lhsIdx (ix2 p j) ((contrEquiv1 dot_S512x128_S1024x128_S512x1024_1_1_0_0_n_n 128 rfl rfl).symm k) = ix2 p k := funext fun a => Fin.ext (by
    match a with
    | ⟨0, _⟩ => exact mm_lhs_0 _ _
    | ⟨1, _⟩ => exact (mm_lhs_1 _ _).trans hk)
  have er : dot_S512x128_S1024x128_S512x1024_1_1_0_0_n_n.rhsIdx (ix2 p j) ((contrEquiv1 dot_S512x128_S1024x128_S512x1024_1_1_0_0_n_n 128 rfl rfl).symm k) = ix2 j k := funext fun a => Fin.ext (by
    match a with
    | ⟨0, _⟩ => exact mm_rhs_0 _ _
    | ⟨1, _⟩ => exact (mm_rhs_1 _ _).trans hk)
  rw [el, er]

/-! ## The lane sum, kept as a column -/

/-- The sum of a [512, 128] block along its lanes, cast to a [512, 1] column, read at (p, u): the sum of row p. -/
theorem rowsum_col (v : FVec Ideal S512x128 .f32) (h : S512x128.Reduces [1] S512) (hφ : FKind.Formats .f32)
    (hacc : (0x00000000#32 : BitVec 32) = FKind.add.neutral .f32 hφ) (hc : S512.ShapeCasts S512x1) (p : Fin 512) (u : Fin 1) :
    shapeCast S512x1 (multiReduction .add [1] S512 v 0x00000000#32 h hφ hacc) hc (ix2 p u) = ∑ c : Fin 128, v (ix2 p c) := by
  refine (Cert.LibColumn.shapeCast_a_a1_apply _ hc p u).trans ?_
  refine (Ideal.multiReduction_add_single v 0x00000000#32 h hφ hacc (ix1 p)).trans ?_
  refine Finset.sum_congr rfl fun k _ => congrArg v (funext fun a => Fin.ext ?_)
  match a with
  | ⟨0, _⟩ => rfl
  | ⟨1, _⟩ => rfl

/-! ## Whole-buffer loads -/

theorem zeros2 : (![0, 0] : Fin 2 → ℕ) = fun _ => 0 := by
  funext a; match a with | ⟨0, _⟩ => rfl | ⟨1, _⟩ => rfl

theorem ld_blk (X : Vec Ideal S512x128 .f32) (inb : ∀ a, (![0, 0] : Fin 2 → ℕ) a + S512x128.size a ≤ S512x128.size a) :
    View.ld X (Rect.unit (s := S512x128) ![0, 0] ![512, 128] inb) = X := View.ld_unit_zero zeros2 inb X

theorem ld_col (X : Vec Ideal S512x1 .f32) (inb : ∀ a, (![0, 0] : Fin 2 → ℕ) a + S512x1.size a ≤ S512x1.size a) :
    View.ld X (Rect.unit (s := S512x1) ![0, 0] ![512, 1] inb) = X := View.ld_unit_zero zeros2 inb X

theorem exp_apply' {s : Shape} (a : FVec Ideal s .f32) (i : s.Idx) : exp a i = Ideal.exp (a i) := rfl

/-! ## Loads and the lane sum as named functions of the block index -/

/-- Row q of the [64, 128] table as a [1, 128] vector. -/
def rowFn (X : Vec Ideal S64x128 .f32) (q : Fin 64) : Vec Ideal S1x128 .f32 := fun y => X (ix2 q (y 1))
theorem rowFn_apply (X : Vec Ideal S64x128 .f32) (q : Fin 64) (u : Fin 1) (c : Fin 128) : rowFn X q (ix2 u c) = X (ix2 q c) := rfl

/-- The 1024 rows of the [8192, 128] table from row roff on. -/
def chunkFn (X : Vec Ideal S8192x128 .bf16) (roff : ℕ)
    (inb : ∀ a, (![roff, 0] : Fin 2 → ℕ) a + S1024x128.size a ≤ S8192x128.size a) : Vec Ideal S1024x128 .bf16 :=
  fun y => X (ix2 (⟨roff + (y 0).val, chunk_lt inb (y 0).val (y 0).isLt⟩ : Fin 8192) (y 1))
theorem chunkFn_apply (X : Vec Ideal S8192x128 .bf16) (roff : ℕ)
    (inb : ∀ a, (![roff, 0] : Fin 2 → ℕ) a + S1024x128.size a ≤ S8192x128.size a) (j : Fin 1024) (k : Fin 128) :
    chunkFn X roff inb (ix2 j k) = X (ix2 (⟨roff + j.val, chunk_lt inb j.val j.isLt⟩ : Fin 8192) k) := rfl

/-- A [512, 1] column given by its entries. -/
def colFn (f : Fin 512 → EReal) : FVec Ideal S512x1 .f32 := fun i => f (i 0)
theorem colFn_apply (f : Fin 512 → EReal) (p : Fin 512) (u : Fin 1) : colFn f (ix2 p u) = f p := rfl

theorem ld_row_vec (X : Vec Ideal S64x128 .f32) (q : ℕ)
    (inb : ∀ a, (![q, 0] : Fin 2 → ℕ) a + S1x128.size a ≤ S64x128.size a) :
    View.ld X (Rect.unit (s := S64x128) ![q, 0] ![1, 128] inb) = rowFn X (⟨q, row_lt inb⟩ : Fin 64) := by
  funext y
  obtain ⟨u, c, rfl⟩ : ∃ (u : Fin 1) (c : Fin 128), y = ix2 u c := ⟨y 0, y 1, eq_ix2 y⟩
  exact ld_row X q inb u c

theorem ld_chunk_vec (X : Vec Ideal S8192x128 .bf16) (roff : ℕ)
    (inb : ∀ a, (![roff, 0] : Fin 2 → ℕ) a + S1024x128.size a ≤ S8192x128.size a) :
    View.ld X (Rect.unit (s := S8192x128) ![roff, 0] ![1024, 128] inb) = chunkFn X roff inb := by
  funext y
  obtain ⟨j, k, rfl⟩ : ∃ (j : Fin 1024) (k : Fin 128), y = ix2 j k := ⟨y 0, y 1, eq_ix2 y⟩
  exact ld_rows1024 X roff inb j k

theorem rowsum_vec (v : FVec Ideal S512x128 .f32) (h : S512x128.Reduces [1] S512) (hφ : FKind.Formats .f32)
    (hacc : (0x00000000#32 : BitVec 32) = FKind.add.neutral .f32 hφ) (hc : S512.ShapeCasts S512x1) :
    shapeCast S512x1 (multiReduction .add [1] S512 v 0x00000000#32 h hφ hacc) hc = colFn fun p => ∑ c : Fin 128, v (ix2 p c) := by
  funext i
  obtain ⟨p, u, rfl⟩ : ∃ (p : Fin 512) (u : Fin 1), i = ix2 p u := ⟨i 0, i 1, eq_ix2 i⟩
  exact rowsum_col v h hφ hacc hc p u

/-- The body's denominator column before the epsilon: the lane sums of the accumulated densities. -/
theorem pay40_eq (v3 : FVec Ideal S512x1 .f32) (v532 : FVec Ideal S512x1024 .f32) (v568 v569 : FVec Ideal S512x128 .f32)
    (v572 v581 v590 v599 : Vec Ideal S1x128 .f32) :
    k0_pay40 (F := Ideal) v3 v532 v568 v569 v572 v581 v590 v599
      = colFn fun p => ∑ c : Fin 128, k0_pay39 (F := Ideal) v3 v532 v568 v569 v572 v581 v590 v599 (ix2 p c) :=
  rowsum_vec (k0_pay39 (F := Ideal) v3 v532 v568 v569 v572 v581 v590 v599) reduces_S512x128_S512 (.inl rfl) rfl
    shapeCasts_S512_S512x1

/-! ## A sum over the 64 members as an accumulator run in order -/

/-- The accumulator after n steps: it starts at 0 and step i adds f i. -/
def accUpTo (f : ℕ → EReal) : ℕ → EReal
  | 0 => 0
  | n + 1 => accUpTo f n + f n

theorem accUpTo_eq_sum (f : ℕ → EReal) (n : ℕ) : accUpTo f n = ∑ i ∈ Finset.range n, f i := by
  induction n with
  | zero => simp [accUpTo]
  | succ n ih => rw [accUpTo, ih, Finset.sum_range_succ]

/-- A sum over the 64 members is the accumulator after 64 steps. -/
theorem sum_fin64_eq_acc (g : Fin 64 → EReal) :
    ∑ q : Fin 64, g q = accUpTo (fun i => if h : i < 64 then g ⟨i, h⟩ else 0) 64 := by
  rw [accUpTo_eq_sum, ← Fin.sum_univ_eq_sum_range]
  exact Finset.sum_congr rfl fun q _ => by simp [q.isLt]

/-! ## The block, entry by entry -/

set_option maxHeartbeats 4000000 in
theorem payload_at (x0 : Vec Ideal S512x128 .f32) (x1 : Vec Ideal S512x1 .f32) (x2 : Vec Ideal S8192x128 .bf16)
    (x3 : Vec Ideal S64x128 .f32) (p : Fin 512) (c : Fin 128) :
    out0_4 (F := Ideal) x0 x1 x2 x3 (ix2 p c) = Cert.Kde.outBlk x0 x1 x2 x3 (ix2 p c) := by
  unfold out0_4
  rw [View.canon_unit_zero zeros2]
  -- the quotient's denominator is the column of the accumulator's lane sums, plus eps
  simp only [k0_pay1, pay40_eq]
  -- every other named value of the body, opened
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41]
  -- the loads: whole blocks, 1024-row chunks of the scaled table, single rows of the staged table
  simp only [r0_0, r0_1, r0_2, r0_3, r0_4, r0_5, r0_6, r0_7, r0_8, r0_9, r0_10, r0_11, r0_12, r0_13, r0_14, r0_15, r0_16, r0_17, r0_18, r0_19, r0_20, r0_21, r0_22, r0_23, r0_24, r0_25, r0_26, r0_27, r0_28, r0_29, r0_30, r0_31, r0_32, r0_33, r0_34, r0_35, r0_36, r0_37, r0_38, r0_39, r0_40, r0_41, r0_42, r0_43, r0_44, r0_45, r0_46, r0_47, r0_48, r0_49, r0_50, r0_51, r0_52, r0_53, r0_54, r0_55, r0_56, r0_57, r0_58, r0_59, r0_60, r0_61, r0_62, r0_63, r0_64, r0_65, r0_66, r0_67, r0_68, r0_69, r0_70, r0_71, r0_72, r0_73, ld_blk, ld_col, ld_row_vec, ld_chunk_vec, shapeCast_self]
  -- every operation read at (p, c)
  simp only [divf_apply, addf_apply, exp_apply', truncf_apply, broadcast_apply, Cert.LibColumn.broadcastTo_a1_ab_apply,
    broadcastTo_1b_ab_apply, slice_apply, matmul_entry, rowFn_apply, chunkFn_apply, colFn_apply, Ideal.ofBits_def,
    Ideal.ofBits_zero_f32, zero_add]
  -- the specification's sums over the 64 members, run in the same order
  show _ = Ideal.div (Cert.Kde.densBlk x0 x1 x2 x3 p c)
    ((∑ m' : Fin 128, Cert.Kde.densBlk x0 x1 x2 x3 p m') + Ideal.ofBits .f32 0x2EDBE6FF#32)
  simp only [Cert.Kde.densBlk, sum_fin64_eq_acc, accUpTo, Nat.reduceLT, reduceDIte, Cert.Kde.expoBlk, Cert.Kde.rowOf,
    zero_add, ← Nat.add_assoc, Nat.zero_add, Nat.zero_mul]

theorem out0_4_eq (x0 : Vec Ideal S512x128 .f32) (x1 : Vec Ideal S512x1 .f32) (x2 : Vec Ideal S8192x128 .bf16)
    (x3 : Vec Ideal S64x128 .f32) : out0_4 (F := Ideal) x0 x1 x2 x3 = Cert.Kde.outBlk x0 x1 x2 x3 := by
  funext j
  obtain ⟨p, c, rfl⟩ : ∃ (p : Fin 512) (c : Fin 128), j = ix2 p c := ⟨j 0, j 1, eq_ix2 j⟩
  exact payload_at x0 x1 x2 x3 p c

end Cert.KernelIdeal.Body

end
-- ==== Proof.KernelValue.lean ====
/-
  The idealized kernel's run with its result named: the output array ends at the specification's function GK of the
  arguments. Every grid point t writes back rows 512 t .. 512 t + 511, and the eight blocks tile the array.
-/
import proofs.«411052_j49469433315702_3_alg».proof.Proof.ValueBlocks
import proofs.«411052_j49469433315702_3_alg».proof.Proof.KernelHost
import proofs.«411052_j49469433315702_3_alg».proof.Proof.Body
import proofs.«411052_j49469433315702_3_alg».proof.Proof.KdeSpec
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.TcCoe Idealize.ShloMosaic.ValueIdx Idealize.SL.Sem

/-! ## One block of the specification, from what the four loaded blocks hold

The block function of the body takes a 512-row block of a, the matching 512 entries of the staged column
(-1/2 r) |a_n|^2, the whole scaled table r b laid out [q * 128 + m, d], and the whole staged table (-1/2 r) |b_mq|^2
laid out [q, m]. Read at block row p = n - 512 t it is row n of the specification. -/

section Block

open Cert.Kde

variable (A : SA.Idx → EReal) (B : SB.Idx → EReal) (v : SV.Idx → EReal)

/-- Row q * 128 + m of the scaled table is b_mq scaled by r: (q * 128 + m) % 128 = m and (q * 128 + m) / 128 = q. -/
theorem bs_rowOf (q : Fin 64) (mm : Fin 128) (d : Fin 128) :
    bs B v (ix2 (rowOf q mm) d) = B (ix3 mm q d) * invVar v := by
  have hm : (rowOf q mm).val % 128 = mm.val := by
    show (q.val * 128 + mm.val) % 128 = mm.val
    have := mm.isLt; omega
  have hq : (rowOf q mm).val / 128 = q.val := by
    show (q.val * 128 + mm.val) / 128 = q.val
    have := mm.isLt; omega
  unfold bs
  refine congrArg (fun i => B i * invVar v) (funext fun a => ?_)
  match a with
  | ⟨0, _⟩ => exact Fin.ext hm
  | ⟨1, _⟩ => exact Fin.ext hq
  | ⟨2, _⟩ => rfl

variable (x0 : Sblk.Idx → EReal) (x1 : Scol.Idx → EReal) (x2 : SBS.Idx → EReal) (x3 : SB2.Idx → EReal)

/-- The block's exponent at block row p is the specification's at array row n, once block row p of the first two
    blocks holds row n of a and of the staged column. -/
theorem expoBlk_eq_expoK (p : Fin 512) (n : Fin 4096)
    (h0 : ∀ k : Fin 128, x0 (ix2 p k) = A (ix2 n k))
    (h1 : x1 (ix2 p (0 : Fin 1)) = a2s A v (ix2 n (0 : Fin 1)))
    (mm : Fin 128) (q : Fin 64) :
    expoBlk x0 x1 (bs B v) (b2s B v) p mm q = expoK A B v n mm q := by
  unfold expoBlk expoK
  rw [h1]
  simp only [h0, bs_rowOf]
  rfl

/-- So the block's entry at block index j is the specification's at array index i, when row (j 0) of the first two
    blocks holds row (i 0) of a and of the staged column, the other two blocks are the two whole tables, and the
    column indices agree. -/
theorem outBlk_eq_GK (j : Sblk.Idx) (i : SA.Idx)
    (h0 : ∀ k : Fin 128, x0 (ix2 (j 0) k) = A (ix2 (i 0) k))
    (h1 : x1 (ix2 (j 0) (0 : Fin 1)) = a2s A v (ix2 (i 0) (0 : Fin 1)))
    (h2 : x2 = bs B v) (h3 : x3 = b2s B v) (hm : j 1 = i 1) :
    outBlk x0 x1 x2 x3 j = GK A B v i := by
  subst h2 h3
  have e : ∀ mm : Fin 128, densBlk x0 x1 (bs B v) (b2s B v) (j 0) mm = ∑ q : Fin 64, Ideal.exp (expoK A B v (i 0) mm q) :=
    fun mm => Finset.sum_congr rfl fun q _ =>
      congrArg Ideal.exp (expoBlk_eq_expoK A B v x0 x1 (j 0) (i 0) h0 h1 mm q)
  show Ideal.div (densBlk x0 x1 (bs B v) (b2s B v) (j 0) (j 1))
      ((∑ m' : Fin 128, densBlk x0 x1 (bs B v) (b2s B v) (j 0) m') + Ideal.ofBits .f32 0x2EDBE6FF#32)
    = Ideal.div (∑ q : Fin 64, Ideal.exp (expoK A B v (i 0) (i 1) q))
      ((∑ m' : Fin 128, ∑ q : Fin 64, Ideal.exp (expoK A B v (i 0) m' q)) + Ideal.ofBits .f32 0x2EDBE6FF#32)
  rw [e (j 1), hm]
  simp only [e]

end Block

variable (m : (ℓ : Loc nD τ sig) → Buf (Elt Ideal) ℓ) (ρ : Dev nD → PrngReg)

/-! ## Where the five windows' blocks sit at grid point t -/

/-- The printed index maps, decided over the eight grid points: the blocks of a, of the staged column and of the
    output sit at block row t, column block 0; the two tables are fetched whole, at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block t of a: its row p is row 512 t + p of the argument a, which no host operation writes. -/
theorem iblk0_apply (c : Dev nD) (t : Fin cfg0.N) (y : S512x128.Idx) (i : S4096x128.Idx)
    (h0 : (i 0).val = 512 * t.val + (y 0).val) (h1 : (i 1).val = (y 1).val) :
    (iblk m c 0 t : Vec Ideal S512x128 .f32) y = m ((c : Thread nD τ).loc main_arg0) i := by
  obtain ⟨e0, e1, -⟩ := idx_facts t
  show V m c main_arg0 (((cfg0.win 0).blk t).view.emb y) = _
  refine (congrFun (V_main_arg0 m c) _).trans (congrArg _ (funext fun a => Fin.ext ?_))
  match a with
  | ⟨0, _⟩ => show win0_0.index t (0 : Fin 2) * 512 + 1 * (y 0).val = (i 0).val; omega
  | ⟨1, _⟩ => show win0_0.index t (1 : Fin 2) * 128 + 1 * (y 1).val = (i 1).val; omega

/-- Block t of the staged column: its entry p is entry 512 t + p of (-1/2 r) |a_n|^2. -/
theorem iblk1_apply (c : Dev nD) (t : Fin cfg0.N) (y : S512x1.Idx) (i : S4096x1.Idx)
    (h0 : (i 0).val = 512 * t.val + (y 0).val) :
    (iblk m c 1 t : Vec Ideal S512x1 .f32) y
      = Cert.Kde.a2s (m ((c : Thread nD τ).loc main_arg0)) (m ((c : Thread nD τ).loc main_arg2)) i := by
  obtain ⟨-, -, e0, e1, -⟩ := idx_facts t
  have hy : (y 1).val < 1 := (y 1).isLt
  have hi : (i 1).val < 1 := (i 1).isLt
  show V m c main_v7 (((cfg0.win 1).blk t).view.emb y) = _
  refine (congrFun (HostSide.V_a2s m c) _).trans (congrArg _ (funext fun a => Fin.ext ?_))
  match a with
  | ⟨0, _⟩ => show win0_1.index t (0 : Fin 2) * 512 + 1 * (y 0).val = (i 0).val; omega
  | ⟨1, _⟩ => show win0_1.index t (1 : Fin 2) * 1 + 1 * (y 1).val = (i 1).val; omega

/-- The third window's one block is the whole scaled table r b. -/
theorem iblk2_eq (c : Dev nD) (t : Fin cfg0.N) :
    (iblk m c 2 t : Vec Ideal S8192x128 .bf16)
      = Cert.Kde.bs (m ((c : Thread nD τ).loc main_arg1)) (m ((c : Thread nD τ).loc main_arg2)) := by
  obtain ⟨-, -, -, -, e0, e1, -⟩ := idx_facts t
  funext y
  show V m c main_v18 (((cfg0.win 2).blk t).view.emb y) = _
  refine (congrFun (HostSide.V_bs m c) _).trans (congrArg _ (funext fun a => Fin.ext ?_))
  match a with
  | ⟨0, _⟩ => show win0_2.index t (0 : Fin 2) * 8192 + 1 * (y 0).val = (y 0).val; omega
  | ⟨1, _⟩ => show win0_2.index t (1 : Fin 2) * 128 + 1 * (y 1).val = (y 1).val; omega

/-- The fourth window's one block is the whole staged table (-1/2 r) |b_mq|^2. -/
theorem iblk3_eq (c : Dev nD) (t : Fin cfg0.N) :
    (iblk m c 3 t : Vec Ideal S64x128 .f32)
      = Cert.Kde.b2s (m ((c : Thread nD τ).loc main_arg1)) (m ((c : Thread nD τ).loc main_arg2)) := by
  obtain ⟨-, -, -, -, -, -, e0, e1, -⟩ := idx_facts t
  funext y
  show V m c main_v13 (((cfg0.win 3).blk t).view.emb y) = _
  refine (congrFun (HostSide.V_b2s m c) _).trans (congrArg _ (funext fun a => Fin.ext ?_))
  match a with
  | ⟨0, _⟩ => show win0_3.index t (0 : Fin 2) * 64 + 1 * (y 0).val = (y 0).val; omega
  | ⟨1, _⟩ => show win0_3.index t (1 : Fin 2) * 128 + 1 * (y 1).val = (y 1).val; omega

/-! ## What a point writes back, and the tiling -/

/-- What grid point t writes back is rows 512 t .. 512 t + 511 of GK of the arguments. -/
theorem flushed_eq (c : Dev nD) (t : Fin cfg0.N) :
    (dats m 0 c).flushed 4 t = ((cfg0.win 4).blk t).view.read (Elt Ideal)
      (Cert.Kde.GK (m ((c : Thread nD τ).loc main_arg0)) (m ((c : Thread nD τ).loc main_arg1)) (m ((c : Thread nD τ).loc main_arg2))) := by
  rw [ValueP.flushed4]
  obtain ⟨-, -, -, -, -, -, -, -, e0, e1⟩ := idx_facts t
  funext j
  show out0_4 (F := Ideal) (iblk m c 0 t) (iblk m c 1 t) (iblk m c 2 t) (iblk m c 3 t) ((cfg0.win 4).xinj (grid0.coords t) j)
    = Cert.Kde.GK _ _ _ (((cfg0.win 4).blk t).view.emb j)
  refine (congrFun (Body.out0_4_eq (iblk m c 0 t) (iblk m c 1 t) (iblk m c 2 t) (iblk m c 3 t)) _).trans ?_
  have hr : ((((cfg0.win 4).blk t).view.emb j) 0).val = 512 * t.val + (j 0).val := by
    show win0_4.index t (0 : Fin 2) * 512 + 1 * (j 0).val = _; omega
  have hc : ((((cfg0.win 4).blk t).view.emb j) 1).val = (j 1).val := by
    show win0_4.index t (1 : Fin 2) * 128 + 1 * (j 1).val = _; omega
  refine outBlk_eq_GK _ _ _ _ _ _ _ _ _ (fun k => ?_) ?_ (iblk2_eq m c t) (iblk3_eq m c t) (Fin.ext hc.symm)
  · exact iblk0_apply m c t _ _ hr rfl
  · exact iblk1_apply m c t _ _ hr

/-- An index of the output array is in point t's block iff each coordinate is in the block's range on its axis. -/
theorem mem_blk (t : Fin cfg0.N) (i : S4096x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v19).slice (win0_4.rect t)).set ↔ _
  rw [View.set_slice_whole, Rect.mem_set_unit]
  exact Iff.rfl

/-- The eight blocks tile the array: row n lies in the block of point n / 512. -/
theorem cover (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 128 ≤ (i 1).val ∧ (i 1).val < win0_4.index t (1 : Fin 2) * 128 + 128
    omega

/-- So the output array ends holding GK of the arguments. -/
theorem final (c : Dev nD) : (dats m 0 c).arrAt 4 cfg0.N
    = Cert.Kde.GK (m ((c : Thread nD τ).loc main_arg0)) (m ((c : Thread nD τ).loc main_arg1)) (m ((c : Thread nD τ).loc main_arg2)) :=
  (dats m 0 c).arrAt_eq_of_cover 4 _ (fun t _ => flushed_eq m c t) cover

/-! ## The run, read -/

theorem run : θ_run defs (onTc (τ := τ) (main (F := Ideal))) ⟨m, fun _ => 0, ρ⟩ fun r => ∀ c : Dev nD,
      r.2.mem ((c : Thread nD τ).loc main_v19)
        = Cert.Kde.GK (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (ValueP.run_blocks m ρ)

end Cert.KernelIdeal.KernelValue

end
-- ==== Proof.RefSide.lean ====
/-
  The reference's result, read one host operation at a time, is the specification's function GR of the arguments.
-/
import proofs.«411052_j49469433315702_3_alg».proof.Proof.Gen.ReferenceIdeal.Read
import proofs.«411052_j49469433315702_3_alg».proof.Proof.KdeSpec

noncomputable section

namespace Cert.Kde.RefSide

open Idealize.ShloMosaic Idealize.ShloMosaic.ValueIdx Cert.ReferenceIdeal
open Cert.ReferenceIdeal.Gen Cert.ReferenceIdeal.Read

/-! ## The variance and its reciprocal -/

/-- The variance reshaped to rank 0 reads the variance's one entry: both row-major positions are 0. -/
theorem v0_at (v : FVec Ideal S1 .f32) (i : S_.Idx) : val_main_v0 (F := Ideal) v i = v (ix1 (0 : Fin 1)) := by
  unfold val_main_v0
  refine shapeCast_apply v shapeCasts_S1_S_ i (ix1 (0 : Fin 1)) ?_
  rw [Shape.rowMajor_val_one]
  have h := (S_.rowMajor i).isLt
  have h1 : S_.numel = 1 := by decide
  show 0 = (S_.rowMajor i).val
  omega

/-- The scalar the exponent is multiplied by is r = 1 / s. -/
theorem v1_at (v : FVec Ideal S1 .f32) (i : S_.Idx) : val_main_v1 (F := Ideal) v i = invVar v := by
  rw [val_main_v1_apply, val_main_cst_apply, v0_at]
  rfl

/-! ## The squared norms and the inner product -/

/-- The row sum of the squared entries of a is |a_n|^2: the sum's initial value is 0. -/
theorem v3_at (A : FVec Ideal S4096x128 .f32) (n : Fin 4096) : val_main_v3 (F := Ideal) A (ix1 n) = sqA A n := by
  rw [val_main_v3_apply, val_main_cst_0_apply, Ideal.ofBits_def, Ideal.ofBits_zero_f32, zero_add]
  unfold sqA
  refine Finset.sum_congr rfl fun k _ => ?_
  have e : idx_main_v3 (ix1 n) k = ix2 n k :=
    funext fun a => Fin.ext (by match a with | ⟨0, _⟩ => rfl | ⟨1, _⟩ => rfl)
  rw [val_main_v2_apply, e]
  rfl

/-- The sum over the last axis of the squared entries of b is |b_mq|^2. -/
theorem v5_at (B : FVec Ideal S128x64x128 .f32) (m : Fin 128) (q : Fin 64) :
    val_main_v5 (F := Ideal) B (ix2 m q) = sqB B m q := by
  rw [val_main_v5_apply, val_main_cst_1_apply, Ideal.ofBits_def, Ideal.ofBits_zero_f32, zero_add]
  unfold sqB
  refine Finset.sum_congr rfl fun k _ => ?_
  have e : idx_main_v5 (ix2 m q) k = ix3 m q k :=
    funext fun a => Fin.ext (by match a with | ⟨0, _⟩ => rfl | ⟨1, _⟩ => rfl | ⟨2, _⟩ => rfl)
  rw [val_main_v4_apply, e]
  rfl

/-- The contraction of a's row n with b's row (m, q) is <a_n, b_mq>. -/
theorem v6_at (A : FVec Ideal S4096x128 .f32) (B : FVec Ideal S128x64x128 .f32) (n : Fin 4096) (m : Fin 128) (q : Fin 64) :
    val_main_v6 (F := Ideal) A B (ix3 n m q) = dotAB A B n m q := by
  rw [val_main_v6_apply]
  unfold dotAB
  refine Finset.sum_congr rfl fun k _ => ?_
  have el : lidx_main_v6 (ix3 n m q) k = ix2 n k :=
    funext fun a => Fin.ext (by match a with | ⟨0, _⟩ => rfl | ⟨1, _⟩ => rfl)
  have er : ridx_main_v6 (ix3 n m q) k = ix3 m q k :=
    funext fun a => Fin.ext (by match a with | ⟨0, _⟩ => rfl | ⟨1, _⟩ => rfl | ⟨2, _⟩ => rfl)
  rw [el, er]

/-! ## The exponent, the densities and the quotient -/

/-- The exponent the reference forms at (n, m, q) is the specification's arrangement expoR. -/
theorem v18_at (A : FVec Ideal S4096x128 .f32) (B : FVec Ideal S128x64x128 .f32) (v : FVec Ideal S1 .f32)
    (n : Fin 4096) (m : Fin 128) (q : Fin 64) :
    val_main_v18 (F := Ideal) A B v (ix3 n m q) = expoR A B v n m q := by
  have e7 : idx_main_v7 (idx_main_v10 (ix3 n m q)) = ix1 n :=
    funext fun a => Fin.ext (by match a with | ⟨0, _⟩ => rfl)
  have e12 : idx_main_v12 (idx_main_v13 (ix3 n m q)) = ix2 m q :=
    funext fun a => Fin.ext (by match a with | ⟨0, _⟩ => rfl | ⟨1, _⟩ => rfl)
  rw [val_main_v18_apply, val_main_v17_apply, val_main_cst_3_apply, val_main_v16_apply, val_main_v15_apply, v1_at,
    val_main_v14_apply, val_main_v13_apply, val_main_v12_apply, e12, v5_at, val_main_v11_apply, val_main_v10_apply,
    val_main_v7_apply, e7, v3_at, val_main_v9_apply, val_main_v8_apply, val_main_cst_2_apply, v6_at]
  rfl

/-- The density the reference accumulates at (n, m) is the sum over q of exp of that exponent. -/
theorem v20_at (A : FVec Ideal S4096x128 .f32) (B : FVec Ideal S128x64x128 .f32) (v : FVec Ideal S1 .f32)
    (n : Fin 4096) (m : Fin 128) :
    val_main_v20 (F := Ideal) A B v (ix2 n m) = ∑ q : Fin 64, Ideal.exp (expoR A B v n m q) := by
  rw [val_main_v20_apply, val_main_cst_4_apply, Ideal.ofBits_def, Ideal.ofBits_zero_f32, zero_add]
  refine Finset.sum_congr rfl fun k _ => ?_
  have e : idx_main_v20 (ix2 n m) k = ix3 n m k :=
    funext fun a => Fin.ext (by match a with | ⟨0, _⟩ => rfl | ⟨1, _⟩ => rfl | ⟨2, _⟩ => rfl)
  rw [val_main_v19_apply, e, v18_at]
  rfl

theorem ref_eq (A : FVec Ideal S4096x128 .f32) (B : FVec Ideal S128x64x128 .f32) (v : FVec Ideal S1 .f32) :
    Cert.ReferenceIdeal.Read.val_main_v26 (F := Ideal) A B v = Cert.Kde.GR A B v := by
  funext i
  obtain ⟨n, mm, rfl⟩ : ∃ (n : Fin 4096) (mm : Fin 128), i = ix2 n mm := ⟨i 0, i 1, eq_ix2 i⟩
  have e21 : ∀ k : Fin 128, idx_main_v21 (idx_main_v22 (idx_main_v25 (ix2 n mm))) k = ix2 n k := fun k =>
    funext fun a => Fin.ext (by match a with | ⟨0, _⟩ => rfl | ⟨1, _⟩ => rfl)
  rw [val_main_v26_apply, v20_at, val_main_v25_apply, val_main_v24_apply, val_main_v22_apply, val_main_v21_apply,
    val_main_cst_5_apply, val_main_v23_apply, val_main_cst_6_apply, Ideal.ofBits_def, Ideal.ofBits_zero_f32, zero_add]
  have es : (∑ k : Fin 128, val_main_v20 (F := Ideal) A B v (idx_main_v21 (idx_main_v22 (idx_main_v25 (ix2 n mm))) k))
      = ∑ m' : Fin 128, ∑ q : Fin 64, Ideal.exp (expoR A B v n m' q) :=
    Finset.sum_congr rfl fun k _ => by rw [e21 k, v20_at]
  rw [es]
  rfl

end Cert.Kde.RefSide

end
-- ==== Proof.PreDecode.lean ====
/-
  What the precondition says of the arguments: every entry of a and of b is a real number, and the variance is a
  nonzero real number.
-/
import proofs.«411052_j49469433315702_3_alg».proof.Proof.Gen.Pre_finite_inputs
import proofs.«411052_j49469433315702_3_alg».proof.Proof.KdeSpec
import Idealize.ShloMosaic.Lib.ReduceAll

noncomputable section

namespace Cert.Kde.PreDecode

open Idealize.ShloMosaic Idealize.ShloMosaic.ValueIdx

/-- The rank-0 shape has one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- A one-bit word made from a truth value is 1 exactly when the truth value is true. -/
theorem ofBool_eq_one (b : Bool) : BitVec.ofBool b = 1#1 ↔ b = true := by cases b <;> decide

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The printed test |x| < +∞ at one entry: when it answers 1, the entry is a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  simpa [Ideal.cmp, ofBool_eq_one] using h

/-- The printed test x ≠ 0 at one entry. -/
theorem ne_zero_of_cmp (x : EReal)
    (h : Ideal.cmp .une x (Ideal.ofBits .f32 0x00000000#32) = 1#1) : x ≠ 0 := by
  rw [Ideal.ofBits_zero_f32] at h
  simpa [Ideal.cmp, ofBool_eq_one] using h

theorem of_pre (A : FVec Ideal Cert.Pre_finite_inputs.S4096x128 .f32) (B : FVec Ideal Cert.Pre_finite_inputs.S128x64x128 .f32)
    (v : FVec Ideal Cert.Pre_finite_inputs.S1 .f32)
    (h : Cert.Pre_finite_inputs.fn (F := Ideal) A B v = fun _ => 1#1) :
    (∀ i, ∃ r : ℝ, A i = (r : EReal)) ∧ (∀ i, ∃ r : ℝ, B i = (r : EReal))
      ∧ ∃ r : ℝ, r ≠ 0 ∧ v (ix1 (0 : Fin 1)) = (r : EReal) := by
  have h0 := congrFun h ix0
  dsimp only [Cert.Pre_finite_inputs.fn, Cert.Pre_finite_inputs.fn_part1] at h0
  -- the conjunction of the four tests, split
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, h2⟩ := IntOp.andi_eq_one.1 (show IntOp.andi _ _ = 1#1 from h12)
  -- each test holds at every entry
  have eA := Host.reduce_andi_all _ _ _ _ _ h1
  have eB := Host.reduce_andi_all _ _ _ _ _ h2
  have eV := Host.reduce_andi_all _ _ _ _ _ h3
  have eN := Host.reduce_andi_all _ _ _ _ _ h4
  refine ⟨fun i => real_of_cmp (A i) (eA i), fun i => real_of_cmp (B i) (eB i), ?_⟩
  obtain ⟨r, hr⟩ := real_of_cmp (v (ix1 (0 : Fin 1))) (eV (ix1 (0 : Fin 1)))
  have hne : v (ix1 (0 : Fin 1)) ≠ 0 := ne_zero_of_cmp _ (eN (ix1 (0 : Fin 1)))
  refine ⟨r, ?_, hr⟩
  rintro rfl
  exact hne (by rw [hr]; rfl)

end Cert.Kde.PreDecode

end
-- ==== Proof.lean ====
/-
  A Gaussian kernel-density estimate: out[n, m] = D[n, m] / (sum_m' D[n, m'] + eps) with D[n, m] the sum over q of
  exp(-|a_n - b_mq|^2 / (2 s)). The kernel expands the squared distance and distributes r = 1 / s over its three
  terms before the exponential; the reference multiplies the assembled distance by r. The two exponents are one real
  number when a, b are real and s is a nonzero real (Proof/KdeSpec.lean), which is what the precondition says
  (Proof/PreDecode.lean); the rest is reading each program's result as the specification's function of the arguments
  (Proof/KernelValue.lean over Proof/Body.lean and Proof/KernelHost.lean; Proof/RefSide.lean).
-/
import proofs.«411052_j49469433315702_3_alg».proof.Defs
import proofs.«411052_j49469433315702_3_alg».proof.Proof.Gen.Kernel
import proofs.«411052_j49469433315702_3_alg».proof.Proof.Gen.Kernel.Frame
import proofs.«411052_j49469433315702_3_alg».proof.Proof.Gen.KernelIdeal
import proofs.«411052_j49469433315702_3_alg».proof.Proof.Gen.KernelIdeal.Frame
import proofs.«411052_j49469433315702_3_alg».proof.Proof.Gen.ReferenceIdeal
import proofs.«411052_j49469433315702_3_alg».proof.Proof.Gen.ReferenceIdeal.Run
import proofs.«411052_j49469433315702_3_alg».proof.Proof.Gen.Pre_finite_inputs
import proofs.«411052_j49469433315702_3_alg».proof.Proof.KernelValue
import proofs.«411052_j49469433315702_3_alg».proof.Proof.RefSide
import proofs.«411052_j49469433315702_3_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the specification's functions of the same arguments, GK and GR, which the precondition makes equal. -/
theorem algebraic : Cert.algebraic_KernelIdeal_ReferenceIdeal := by
  intro m ρ m' ρ' hpre hagree
  refine ⟨fun c => Cert.Kde.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hB, hv⟩ := Cert.Kde.PreDecode.of_pre _ _ _ (hpre c)
  rw [Cert.ReferenceIdeal.Read.val_main_v26_eq, Cert.Kde.RefSide.ref_eq, (hagree c).1, (hagree c).2.1, (hagree c).2.2]
  exact (Cert.Kde.GK_eq_GR _ _ _ hA hB hv).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
